-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8 : Shape := ⟨1, ![8]⟩
abbrev S4096x8 : Shape := ⟨2, ![4096, 8]⟩
abbrev S1024x4096 : Shape := ⟨2, ![1024, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8 : S_.BroadcastsInDim S8 (![] : Fin 0 → Fin S8.rank)
  reducesTo_S8_S_d0 : S8.ReducesTo [0] S_
  bcast_S_S4096x8 : S_.BroadcastsInDim S4096x8 (![] : Fin 0 → Fin S4096x8.rank)
  reducesTo_S4096x8_S_d0_1 : S4096x8.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S8x4096x1024 .f32) (main_arg1 : FVec F S8 .f32) (main_arg2 : FVec F S4096x8 .f32) (main_arg3 : FVec F S1024x4096 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S4096x8 .f32 := Host.absf main_arg2
  let main_cst_2 : FVec F S_ .f32 := constant S_ .f32 0x7F800000#32
  let main_v10 : FVec F S4096x8 .f32 := broadcastInDim S4096x8 ![] bcast_S_S4096x8 main_cst_2
  let main_v11 : IVec S4096x8 1 := cmpf .olt main_v9 main_v10
  let main_c_3 : IVec S_ 1 := constantI S_ 1 1#1
  let main_v12 : IVec S_ 1 := (fun x v => Host.reduce IntOp.andi x v reducesTo_S4096x8_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S8x4096x1024 : Shape := ⟨3, ![8, 4096, 1024]⟩
abbrev S8 : Shape := ⟨1, ![8]⟩
abbrev S4096x8 : Shape := ⟨2, ![4096, 8]⟩
abbrev S1024x4096 : Shape := ⟨2, ![1024, 4096]⟩
abbrev S8x4096x8 : Shape := ⟨3, ![8, 4096, 8]⟩
abbrev S32768x8 : Shape := ⟨2, ![32768, 8]⟩
abbrev S1x8 : Shape := ⟨2, ![1, 8]⟩
abbrev S32768x1024 : Shape := ⟨2, ![32768, 1024]⟩
abbrev S512x8 : Shape := ⟨2, ![512, 8]⟩
abbrev S512x1024 : Shape := ⟨2, ![512, 1024]⟩
abbrev S512x4096 : Shape := ⟨2, ![512, 4096]⟩

abbrev nBuf : Space → Nat
  | .hbm => 11
  | .vmem => 7
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S8x4096x8, .f32⟩
  | .hbm, ⟨5, _⟩ => ⟨S32768x8, .f32⟩
  | .hbm, ⟨6, _⟩ => ⟨S1x8, .f32⟩
  | .hbm, ⟨7, _⟩ => ⟨S4096x8, .bf16⟩
  | .hbm, ⟨8, _⟩ => ⟨S1024x4096, .bf16⟩
  | .hbm, ⟨9, _⟩ => ⟨S32768x1024, .f32⟩
  | .hbm, ⟨10, _⟩ => ⟨S8x4096x1024, .f32⟩
  | .local _ .vmem, ⟨0, _⟩ => ⟨S512x8, .f32⟩
  | .local _ .vmem, ⟨1, _⟩ => ⟨S512x8, .f32⟩
  | .local _ .vmem, ⟨2, _⟩ => ⟨S1x8, .f32⟩
  | .local _ .vmem, ⟨3, _⟩ => ⟨S4096x8, .bf16⟩
  | .local _ .vmem, ⟨4, _⟩ => ⟨S1024x4096, .bf16⟩
  | .local _ .vmem, ⟨5, _⟩ => ⟨S512x1024, .f32⟩
  | .local _ .vmem, ⟨6, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x8 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S8x4096x1024_S8x4096x8_0_0_0 : S8x4096x1024.Slices ![0, 0, 0] S8x4096x8
  shapeCasts_S8x4096x8_S32768x8 : S8x4096x8.ShapeCasts S32768x8
  shapeCasts_S8_S1x8 : S8.ShapeCasts S1x8
  bitsLt_bf16_f32 : FTy.bits .bf16 < FTy.bits .f32
  inb_S512x8_S512x8_0_0 : ∀ a, (![0, 0] : Fin 2 → Nat) a + S512x8.size a ≤ S512x8.size a
  h_S512x8 : 0 < S512x8.numel
  shapeCasts_S512x8_S512x8 : S512x8.ShapeCasts S512x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S512x8 : S1x8.Broadcasts S512x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x1024_S512x1024_0_0 : ∀ a, (![0, 0] : Fin 2 → Nat) a + S512x1024.size a ≤ S512x1024.size a
  h_S512x1024 : 0 < S512x1024.numel
  shapeCasts_S32768x1024_S8x4096x1024 : S32768x1024.ShapeCasts S8x4096x1024
  dot_S512x8_S4096x8_S512x4096_1_1_0_0_n_n_wf : DotDims.WF S512x8 S4096x8 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8.size a ≤ S32768x8.size a
  hwx0_0 : ∀ i : grid0.Coords, EltTy.bits .f32 = 32 ∨ (Rect.block (s := S32768x8) S512x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S4096x8.size a
  hwx0_2 : ∀ i : grid0.Coords, EltTy.bits .bf16 = 32 ∨ (Rect.block (s := S4096x8) S4096x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)

variable [Facts₀]

def dot_S512x8_S4096x8_S512x4096_1_1_0_0_n_n : DotDims S512x8 S4096x8 S512x4096 where
  lhsContracting := [1]
  rhsContracting := [1]
  lhsNonContracting := [0]
  rhsNonContracting := [0]
  lhsBatch := []
  rhsBatch := []
  wf := dot_S512x8_S4096x8_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v1) S512x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8 : Shape := ⟨1, ![8]⟩
abbrev S4096x8 : Shape := ⟨2, ![4096, 8]⟩
abbrev S1024x4096 : Shape := ⟨2, ![1024, 4096]⟩
abbrev S8x4096x8 : Shape := ⟨3, ![8, 4096, 8]⟩
abbrev S1x1x8 : Shape := ⟨3, ![1, 1, 8]⟩
abbrev S8x4096x4096 : Shape := ⟨3, ![8, 4096, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8, .f32⟩
  | .hbm, ⟨2, _⟩ => ⟨S4096x8, .f32⟩
  | .hbm, ⟨3, _⟩ => ⟨S1024x4096, .f32⟩
  | .hbm, ⟨4, _⟩ => ⟨S8x4096x8, .f32⟩
  | .hbm, ⟨5, _⟩ => ⟨S8x4096x8, .f32⟩
  | .hbm, ⟨6, _⟩ => ⟨S8, .f32⟩
  | .hbm, ⟨7, _⟩ => ⟨S1x1x8, .f32⟩
  | .hbm, ⟨8, _⟩ => ⟨S8x4096x8, .f32⟩
  | .hbm, ⟨9, _⟩ => ⟨S8x4096x8, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  slices_S8x4096x1024_S8x4096x8_0_0_0 : S8x4096x1024.Slices ![0, 0, 0] S8x4096x8
  bcast_S8_S1x1x8_2 : S8.BroadcastsInDim S1x1x8 (![2] : Fin 1 → Fin S1x1x8.rank)
  bcast_S1x1x8_S8x4096x8_0_1_2 : S1x1x8.BroadcastsInDim S8x4096x8 (![0, 1, 2] : Fin 3 → Fin S8x4096x8.rank)
  bcast_S_S8x4096x4096 : S_.BroadcastsInDim S8x4096x4096 (![] : Fin 0 → Fin S8x4096x4096.rank)
  dot_S8x4096x8_S4096x8_S8x4096x4096_2_1_01_0_n_n_wf : DotDims.WF S8x4096x8 S4096x8 S8x4096x4096 [2] [1] [0, 1] [0] [] []
  dot_S8x4096x4096_S1024x4096_S8x4096x1024_2_1_01_0_n_n_wf : DotDims.WF S8x4096x4096 S1024x4096 S8x4096x1024 [2] [1] [0, 1] [0] [] []

variable [Facts₀]

def dot_S8x4096x8_S4096x8_S8x4096x4096_2_1_01_0_n_n : DotDims S8x4096x8 S4096x8 S8x4096x4096 where
  lhsContracting := [2]
  rhsContracting := [1]
  lhsNonContracting := [0, 1]
  rhsNonContracting := [0]
  lhsBatch := []
  rhsBatch := []
  wf := dot_S8x4096x8_S4096x8_S8x4096x4096_2_1_01_0_n_n_wf
def dot_S8x4096x4096_S1024x4096_S8x4096x1024_2_1_01_0_n_n : DotDims S8x4096x4096 S1024x4096 S8x4096x1024 where
  lhsContracting := [2]
  rhsContracting := [1]
  lhsNonContracting := [0, 1]
  rhsNonContracting := [0]
  lhsBatch := []
  rhsBatch := []
  wf := dot_S8x4096x4096_S1024x4096_S8x4096x1024_2_1_01_0_n_n_wf

class Facts : Prop extends Facts₀ where

variable [Facts]
-- ==== Proof.Spec.lean ====
/-
  The function both programs compute, over the extended reals.

  For a token (b, s) and a wire n < 8 the measured expectation is cos x[b,s,n] · cos θ[n]; the hidden layer is
  h[b,s,f] = max (Σ_n (cos x[b,s,n] · cos θ[n]) · W1[f,n]) 0, and the output is out[b,s,e] = Σ_f h[b,s,f] · W2[e,f].
  The same expression over a table of rows (one row per token, the first eight channels of x kept) is `rows`:
  the kernel computes it on blocks of 512 rows of the flattened [32768, 8] table.
-/
import Idealize.ShloMosaic.PureOps.Ideal
import Idealize.ShloMosaic.Lib.ValueIdx

noncomputable section

namespace Cert.FeedForward

open Idealize.ShloMosaic Idealize.ShloMosaic.ValueIdx

/-- The two-layer network on row p of a table `xq` of R rows of eight angles, at output channel e:
    Σ_f max (Σ_n (cos xq[p,n] · cos th[0,n]) · w1[f,n]) 0 · w2[e,f]. -/
def entry {R : Nat} (xq : (⟨2, ![R, 8]⟩ : Shape).Idx → EReal) (th : (⟨2, ![1, 8]⟩ : Shape).Idx → EReal)
    (w1 : (⟨2, ![4096, 8]⟩ : Shape).Idx → EReal) (w2 : (⟨2, ![1024, 4096]⟩ : Shape).Idx → EReal)
    (p : Fin R) (e : Fin 1024) : EReal :=
  ∑ f : Fin 4096, max (∑ n : Fin 8, (Ideal.cos (xq (ix2 p n)) * Ideal.cos (th (ix2 (0 : Fin 1) n))) * w1 (ix2 f n)) 0
    * w2 (ix2 e f)

/-- The whole [R, 1024] table of those entries. -/
def rows {R : Nat} (xq : (⟨2, ![R, 8]⟩ : Shape).Idx → EReal) (th : (⟨2, ![1, 8]⟩ : Shape).Idx → EReal)
    (w1 : (⟨2, ![4096, 8]⟩ : Shape).Idx → EReal) (w2 : (⟨2, ![1024, 4096]⟩ : Shape).Idx → EReal) :
    (⟨2, ![R, 1024]⟩ : Shape).Idx → EReal := fun j => entry xq th w1 w2 (j 0) (j 1)

theorem rows_ix2 {R : Nat} (xq : (⟨2, ![R, 8]⟩ : Shape).Idx → EReal) (th : (⟨2, ![1, 8]⟩ : Shape).Idx → EReal)
    (w1 : (⟨2, ![4096, 8]⟩ : Shape).Idx → EReal) (w2 : (⟨2, ![1024, 4096]⟩ : Shape).Idx → EReal) (p : Fin R) (e : Fin 1024) :
    rows xq th w1 w2 (ix2 p e) = entry xq th w1 w2 p e := rfl

/-- An entry depends only on its own row of the table, on θ's row, on W1 and on row e of W2: two sets of tables that
    agree there give the same entry (a block of rows read in place of the whole table). -/
theorem entry_congr {R R' : Nat} (xq : (⟨2, ![R, 8]⟩ : Shape).Idx → EReal) (xq' : (⟨2, ![R', 8]⟩ : Shape).Idx → EReal)
    (th th' : (⟨2, ![1, 8]⟩ : Shape).Idx → EReal) (w1 w1' : (⟨2, ![4096, 8]⟩ : Shape).Idx → EReal)
    (w2 w2' : (⟨2, ![1024, 4096]⟩ : Shape).Idx → EReal) (p : Fin R) (p' : Fin R') (e e' : Fin 1024)
    (hx : ∀ n : Fin 8, xq (ix2 p n) = xq' (ix2 p' n)) (hth : ∀ n : Fin 8, th (ix2 (0 : Fin 1) n) = th' (ix2 (0 : Fin 1) n))
    (hw1 : ∀ (f : Fin 4096) (n : Fin 8), w1 (ix2 f n) = w1' (ix2 f n)) (hw2 : ∀ f : Fin 4096, w2 (ix2 e f) = w2' (ix2 e' f)) :
    entry xq th w1 w2 p e = entry xq' th' w1' w2' p' e' := by
  unfold entry
  refine Finset.sum_congr rfl fun f _ => ?_
  rw [hw2 f]
  congr 2
  refine Finset.sum_congr rfl fun n _ => ?_
  rw [hx n, hth n, hw1 f n]

/-- Channel n < 8 of x as a channel of the full 1024. -/
abbrev chan (n : Fin 8) : Fin 1024 := ⟨n.val, by have := n.isLt; omega⟩

/-- The network's output at (b, s, e), from the full input x[8,4096,1024] and θ[8]. -/
def out (x : (⟨3, ![8, 4096, 1024]⟩ : Shape).Idx → EReal) (θ : (⟨1, ![8]⟩ : Shape).Idx → EReal)
    (w1 : (⟨2, ![4096, 8]⟩ : Shape).Idx → EReal) (w2 : (⟨2, ![1024, 4096]⟩ : Shape).Idx → EReal) :
    (⟨3, ![8, 4096, 1024]⟩ : Shape).Idx → EReal := fun i =>
  ∑ f : Fin 4096, max (∑ n : Fin 8, (Ideal.cos (x (ix3 (i 0) (i 1) (chan n))) * Ideal.cos (θ (ix1 n))) * w1 (ix2 f n)) 0
    * w2 (ix2 (i 2) f)

/-- Token (b, s) is row b · 4096 + s of the flattened table. -/
abbrev tok (b : Fin 8) (s : Fin 4096) : Fin 32768 := ⟨b.val * 4096 + s.val, by have := b.isLt; have := s.isLt; omega⟩

/-- If the table's row b·4096+s holds x[b,s,0..8) and th's one row holds θ, then `rows` at (b·4096+s, e) is `out` at (b, s, e). -/
theorem rows_flat (x : (⟨3, ![8, 4096, 1024]⟩ : Shape).Idx → EReal) (θ : (⟨1, ![8]⟩ : Shape).Idx → EReal)
    (w1 : (⟨2, ![4096, 8]⟩ : Shape).Idx → EReal) (w2 : (⟨2, ![1024, 4096]⟩ : Shape).Idx → EReal)
    (xq : (⟨2, ![32768, 8]⟩ : Shape).Idx → EReal) (th : (⟨2, ![1, 8]⟩ : Shape).Idx → EReal)
    (hx : ∀ (b : Fin 8) (s : Fin 4096) (n : Fin 8), xq (ix2 (tok b s) n) = x (ix3 b s (chan n)))
    (hth : ∀ n : Fin 8, th (ix2 (0 : Fin 1) n) = θ (ix1 n))
    (b : Fin 8) (s : Fin 4096) (e : Fin 1024) :
    rows xq th w1 w2 (ix2 (tok b s) e) = out x θ w1 w2 (ix3 b s e) := by
  rw [rows_ix2]
  unfold entry out
  refine Finset.sum_congr rfl fun f _ => ?_
  congr 2
  refine Finset.sum_congr rfl fun n _ => ?_
  rw [hth n]
  exact congrArg (fun t => Ideal.cos t * Ideal.cos (θ (ix1 n)) * w1 (ix2 f n)) (hx b s n)

end Cert.FeedForward

end
-- ==== Proof.Payload.lean ====
/-
  The kernel body's arithmetic on one block of 512 tokens, at the extended reals, is `FeedForward.rows`.

  The body multiplies cos of the block [512, 8] by cos of θ's row [1, 8] broadcast over the tokens, contracts the wire
  axis against W1 [4096, 8], takes the maximum with 0, and contracts the hidden axis against W2 [1024, 4096]; the two
  casts to bf16 are the identity on the extended reals and each matrix product into a zero accumulator is a plain sum
  over its contracted axis.
-/
import proofs.«144287_j65481071395981_1_alg».proof.Proof.Gen.KernelIdeal.Skeleton
import proofs.«144287_j65481071395981_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen
open Idealize.ShloMosaic Idealize.ShloMosaic.ValueIdx
open Cert.FeedForward

/-! ## The first product: tokens × wires against hidden × wires -/

theorem lhs_wires_0 (i : S512x4096.Idx) (q : dot_S512x8_S4096x8_S512x4096_1_1_0_0_n_n.contr.Idx) :
    (dot_S512x8_S4096x8_S512x4096_1_1_0_0_n_n.lhsIdx i q 0).val = (i 0).val := by
  unfold DotDims.lhsIdx
  rw [dif_neg (show ¬(0 : Fin S512x8.rank) ∈ dot_S512x8_S4096x8_S512x4096_1_1_0_0_n_n.lhsBatch by decide), dif_pos (show (0 : Fin S512x8.rank) ∈ dot_S512x8_S4096x8_S512x4096_1_1_0_0_n_n.lhsNonContracting by decide)]
  rfl
theorem lhs_wires_1 (i : S512x4096.Idx) (q : dot_S512x8_S4096x8_S512x4096_1_1_0_0_n_n.contr.Idx) :
    (dot_S512x8_S4096x8_S512x4096_1_1_0_0_n_n.lhsIdx i q 1).val = (q ⟨0, by decide⟩).val :=
  dot_S512x8_S4096x8_S512x4096_1_1_0_0_n_n.lhsIdx_val_of_single rfl i q
theorem rhs_wires_0 (i : S512x4096.Idx) (q : dot_S512x8_S4096x8_S512x4096_1_1_0_0_n_n.contr.Idx) :
    (dot_S512x8_S4096x8_S512x4096_1_1_0_0_n_n.rhsIdx i q 0).val = (i 1).val := by
  unfold DotDims.rhsIdx
  rw [dif_neg (show ¬(0 : Fin S4096x8.rank) ∈ dot_S512x8_S4096x8_S512x4096_1_1_0_0_n_n.rhsBatch by decide), dif_pos (show (0 : Fin S4096x8.rank) ∈ dot_S512x8_S4096x8_S512x4096_1_1_0_0_n_n.rhsNonContracting by decide)]
  rfl
theorem rhs_wires_1 (i : S512x4096.Idx) (q : dot_S512x8_S4096x8_S512x4096_1_1_0_0_n_n.contr.Idx) :
    (dot_S512x8_S4096x8_S512x4096_1_1_0_0_n_n.rhsIdx i q 1).val = (q ⟨0, by decide⟩).val :=
  dot_S512x8_S4096x8_S512x4096_1_1_0_0_n_n.rhsIdx_val_of_single rfl i q

/-- Into a zero accumulator, entry (p, f) of the first product is Σ_n l[p,n] · r[f,n]. -/
theorem matmul_wires_apply (l : FVec Ideal S512x8 .bf16) (r : FVec Ideal S4096x8 .bf16) (p : Fin 512) (f : Fin 4096) :
    matmul dot_S512x8_S4096x8_S512x4096_1_1_0_0_n_n none l r (constant S512x4096 .f32 0x00000000#32) (ix2 p f)
      = ∑ n : Fin 8, l (ix2 p n) * r (ix2 f n) := by
  simp only [matmul]
  rw [Ideal.matmul_constant_zero_apply, ← Equiv.sum_comp (contrEquiv1 dot_S512x8_S4096x8_S512x4096_1_1_0_0_n_n 8 rfl rfl).symm]
  refine Finset.sum_congr rfl fun k _ => ?_
  have hk := contrEquiv1_symm_val dot_S512x8_S4096x8_S512x4096_1_1_0_0_n_n 8 rfl rfl k
  have el : dot_S512x8_S4096x8_S512x4096_1_1_0_0_n_n.lhsIdx (ix2 p f) ((contrEquiv1 dot_S512x8_S4096x8_S512x4096_1_1_0_0_n_n 8 rfl rfl).symm k) = ix2 p k := funext fun a => Fin.ext (by
    match a with
    | ⟨0, _⟩ => exact lhs_wires_0 _ _
    | ⟨1, _⟩ => exact (lhs_wires_1 _ _).trans hk)
  have er : dot_S512x8_S4096x8_S512x4096_1_1_0_0_n_n.rhsIdx (ix2 p f) ((contrEquiv1 dot_S512x8_S4096x8_S512x4096_1_1_0_0_n_n 8 rfl rfl).symm k) = ix2 f k := funext fun a => Fin.ext (by
    match a with
    | ⟨0, _⟩ => exact rhs_wires_0 _ _
    | ⟨1, _⟩ => exact (rhs_wires_1 _ _).trans hk)
  rw [el, er]

/-! ## The second product: tokens × hidden against outputs × hidden -/

theorem lhs_hidden_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_hidden_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_hidden_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_hidden_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- Into a zero accumulator, entry (p, e) of the second product is Σ_f l[p,f] · r[e,f]. -/
theorem matmul_hidden_apply (l : FVec Ideal S512x4096 .bf16) (r : FVec Ideal S1024x4096 .bf16) (p : Fin 512) (e : Fin 1024) :
    matmul dot_S512x4096_S1024x4096_S512x1024_1_1_0_0_n_n none l r (constant S512x1024 .f32 0x00000000#32) (ix2 p e)
      = ∑ f : Fin 4096, l (ix2 p f) * r (ix2 e f) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p e) ((contrEquiv1 dot_S512x4096_S1024x4096_S512x1024_1_1_0_0_n_n 4096 rfl rfl).symm k) = ix2 p k := funext fun a => Fin.ext (by
    match a with
    | ⟨0, _⟩ => exact lhs_hidden_0 _ _
    | ⟨1, _⟩ => exact (lhs_hidden_1 _ _).trans hk)
  have er : dot_S512x4096_S1024x4096_S512x1024_1_1_0_0_n_n.rhsIdx (ix2 p e) ((contrEquiv1 dot_S512x4096_S1024x4096_S512x1024_1_1_0_0_n_n 4096 rfl rfl).symm k) = ix2 e k := funext fun a => Fin.ext (by
    match a with
    | ⟨0, _⟩ => exact rhs_hidden_0 _ _
    | ⟨1, _⟩ => exact (rhs_hidden_1 _ _).trans hk)
  rw [el, er]

/-! ## The payload -/

/-- The cosine of a vector, read at an index. -/
theorem cos_apply {s : Shape} {φ : FTy} (x : FVec Ideal s φ) (i : s.Idx) : Idealize.ShloMosaic.cos x i = Ideal.cos (x i) := rfl

/-- The value the body stores is `rows` of its four loaded blocks. -/
theorem pay_eq_rows (x0 : Vec Ideal S512x8 .f32) (x1 : Vec Ideal S1x8 .f32) (x2 : Vec Ideal S4096x8 .bf16) (x3 : Vec Ideal S1024x4096 .bf16) :
    k0_pay1 (F := Ideal) x0 x1 x2 x3 = rows (R := 512) x0 x1 x2 x3 := by
  funext j
  obtain ⟨p, e, rfl⟩ : ∃ (p : Fin 512) (e : Fin 1024), j = ix2 p e := ⟨j 0, j 1, eq_ix2 j⟩
  rw [rows_ix2]
  unfold k0_pay1 entry
  rw [matmul_hidden_apply]
  refine Finset.sum_congr rfl fun f _ => ?_
  simp only [shapeCast_self, truncf_apply, maximumf_apply, broadcast_apply, matmul_wires_apply, mulf_apply, cos_apply,
    broadcastTo_1b_ab_apply, Ideal.ofBits_def, Ideal.ofBits_zero_f32]

end Cert.KernelIdeal.Payload

end
-- ==== Proof.Blocks.lean ====
/-
  From blocks to the array: after the region the kernel's [32768, 1024] result array is `FeedForward.rows` of the four
  arrays the region reads, as it finds them.

  Grid point t works on rows 512·t … 512·t + 511: its block of the token table is those rows, θ's row and the two weight
  matrices are read whole at every point, and the block it writes back is those rows of the result. What it writes is
  `rows` of its blocks, and an entry of `rows` depends only on its own row of the table, so the written block is the
  block of `rows` of the whole arrays; the 64 blocks tile the result.
-/
import proofs.«144287_j65481071395981_1_alg».proof.Proof.Gen.KernelIdeal.Frame
import proofs.«144287_j65481071395981_1_alg».proof.Proof.Payload
import Idealize.ShloMosaic.Lib.Pipeline.Value

set_option maxRecDepth 16384

noncomputable section

namespace Cert.KernelIdeal.Blocks

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.FeedForward

variable (m : (ℓ : Loc nD τ sig) → Buf (Elt Ideal) ℓ) (ρ : Dev nD → PrngReg)

theorem zero_off : (![0, 0] : Fin 2 → Nat) = fun _ => 0 := funext fun a => by fin_cases a <;> rfl

/-- The printed index maps over the grid: point t's token block and result block are block t on the row axis; every other
    block index is 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every row block of the result is some point's. -/
theorem idx_onto : ∀ q : Fin 64, ∃ t : Fin cfg0.N, win0_4.index t = ![q.val, 0] :=
  (by decide +kernel : ∀ q : Fin 64, ∃ t : Fin grid0.N, win0_4.index t = ![q.val, 0])

/-- What point t writes back is block t of `rows` of the arrays the region reads. -/
theorem flushed_eq (c : Dev nD) (t : Fin cfg0.N) :
    (dats m 0 c).flushed 4 t = ((cfg0.win 4).blk t).view.read (Elt Ideal)
      (rows (R := 32768) (V m c main_v1) (V m c main_v2) (V m c main_v3) (V m c main_v4)) := by
  show (cfg0.win 4).cut (grid0.coords t) ((dats m 0 c).after 4 t) = _
  rw [after0_4]
  unfold out0_4
  rw [View.canon_unit_zero zero_off]
  simp only [View.ld_unit_zero (S := S512x8) zero_off, View.ld_unit_zero (S := S1x8) zero_off,
    View.ld_unit_zero (S := S4096x8) zero_off, View.ld_unit_zero (S := S1024x4096) zero_off]
  rw [Payload.pay_eq_rows]
  obtain ⟨a0, a1, b0, b1, c0, c1, d0, d1, o0, o1⟩ := idx_facts t
  funext j
  show entry (R := 512) (iblk m c 0 t) (iblk m c 1 t) (iblk m c 2 t) (iblk m c 3 t) (j 0) (j 1)
    = entry (R := 32768) (V m c main_v1) (V m c main_v2) (V m c main_v3) (V m c main_v4)
        ((((cfg0.win 4).blk t).view.emb j) 0) ((((cfg0.win 4).blk t).view.emb j) 1)
  have hj0 : (j 0).val < 512 := (j 0).isLt
  have hj1 : (j 1).val < 1024 := (j 1).isLt
  refine entry_congr (R := 512) (R' := 32768) (iblk m c 0 t) (V m c main_v1) (iblk m c 1 t) (V m c main_v2)
    (iblk m c 2 t) (V m c main_v3) (iblk m c 3 t) (V m c main_v4) (j 0) ((((cfg0.win 4).blk t).view.emb j) 0)
    (j 1) ((((cfg0.win 4).blk t).view.emb j) 1) (fun n => ?_) (fun n => ?_) (fun f n => ?_) (fun f => ?_)
  · show V m c main_v1 (((cfg0.win 0).blk t).view.emb (ix2 (j 0) n)) = V m c main_v1 (ix2 ((((cfg0.win 4).blk t).view.emb j) 0) n)
    refine congrArg (V m c main_v1) (funext fun a => Fin.ext ?_)
    have hn : n.val < 8 := n.isLt
    match a with
    | ⟨0, _⟩ => show win0_0.index t (0 : Fin 2) * 512 + 1 * (j 0).val = win0_4.index t (0 : Fin 2) * 512 + 1 * (j 0).val; omega
    | ⟨1, _⟩ => show win0_0.index t (1 : Fin 2) * 8 + 1 * n.val = n.val; omega
  · show V m c main_v2 (((cfg0.win 1).blk t).view.emb (ix2 (0 : Fin 1) n)) = V m c main_v2 (ix2 (0 : Fin 1) n)
    refine congrArg (V m c main_v2) (funext fun a => Fin.ext ?_)
    match a with
    | ⟨0, _⟩ => show win0_1.index t (0 : Fin 2) * 1 + 1 * 0 = 0; omega
    | ⟨1, _⟩ => show win0_1.index t (1 : Fin 2) * 8 + 1 * n.val = n.val; omega
  · show V m c main_v3 (((cfg0.win 2).blk t).view.emb (ix2 f n)) = V m c main_v3 (ix2 f n)
    refine congrArg (V m c main_v3) (funext fun a => Fin.ext ?_)
    match a with
    | ⟨0, _⟩ => show win0_2.index t (0 : Fin 2) * 4096 + 1 * f.val = f.val; omega
    | ⟨1, _⟩ => show win0_2.index t (1 : Fin 2) * 8 + 1 * n.val = n.val; omega
  · show V m c main_v4 (((cfg0.win 3).blk t).view.emb (ix2 (j 1) f)) = V m c main_v4 (ix2 ((((cfg0.win 4).blk t).view.emb j) 1) f)
    refine congrArg (V m c main_v4) (funext fun a => Fin.ext ?_)
    match a with
    | ⟨0, _⟩ => show win0_3.index t (0 : Fin 2) * 1024 + 1 * (j 1).val = win0_4.index t (1 : Fin 2) * 1024 + 1 * (j 1).val; omega
    | ⟨1, _⟩ => show win0_3.index t (1 : Fin 2) * 4096 + 1 * f.val = f.val; omega

/-- An index of the result array is in point t's block iff each coordinate is in the block's range on its axis. -/
theorem mem_blk (t : Fin cfg0.N) (i : S32768x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v5).slice (win0_4.rect t)).set ↔ _
  rw [View.set_slice_whole, Rect.mem_set_unit]
  exact Iff.rfl

/-- Every index of the result array is in the block of the point its row falls in: row r is in block r / 512. -/
theorem cover (i : S32768x1024.Idx) : ∃ t : Fin cfg0.N, (cfg0.win 4).flush t = true ∧ i ∈ ((cfg0.win 4).blk t).view.set := by
  have hi0 : (i 0).val < 32768 := (i 0).isLt
  have hi1 : (i 1).val < 1024 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The result array after the run. -/
theorem final (c : Dev nD) : (dats m 0 c).arrAt 4 cfg0.N
    = rows (R := 32768) (V m c main_v1) (V m c main_v2) (V m c main_v3) (V m c main_v4) :=
  (dats m 0 c).arrAt_eq_of_cover 4 _ (fun t _ => flushed_eq m c t) cover

end Cert.KernelIdeal.Blocks

end
-- ==== Proof.KernelRun.lean ====
/-
  The kernel's whole program computes `FeedForward.out`.

  Before the region the program slices channels 0..8 of x and flattens (b, s) to the row b·4096 + s, gives θ a unit row
  axis, and casts W1 and W2 to bf16 (the identity on the extended reals). The region leaves `rows` of those four arrays in
  the [32768, 1024] result, and the one operation after it splits the row b·4096 + s back into (b, s): entry (b, s, e) of the
  program's result is `rows` at (b·4096 + s, e), which is `out` at (b, s, e).
-/
import proofs.«144287_j65481071395981_1_alg».proof.Proof.Blocks
import Idealize.ShloMosaic.Lib.StableHlo.Run
import Idealize.ShloMosaic.Lib.ValueLayout

set_option maxRecDepth 16384

noncomputable section

namespace Cert.KernelIdeal.KernelRun

open Cert.KernelIdeal Cert.KernelIdeal.Gen
open Idealize.ShloMosaic Idealize.ShloMosaic.TcCoe Idealize.ShloMosaic.ValueIdx
open Idealize.SL Idealize.SL.Sem Idealize.ShloMosaic.StableHlo
open Idealize.ShloMosaic.Pipeline (Dat Cfg Window)
open Cert.FeedForward

variable (m : (ℓ : Loc nD τ sig) → Buf (Elt Ideal) ℓ) (ρ : Dev nD → PrngReg)

/-! ## The arrays the region reads, from the arguments -/

/-- The token table: the flattening of the slice of x. -/
theorem table_eq (c : Dev nD) : (V m c main_v1 : S32768x8.Idx → EReal)
    = shapeCast S32768x8 (extractStridedSlice S8x4096x8 ![0, 0, 0] (m ((c : Thread nD τ).loc main_arg0)) slices_S8x4096x1024_S8x4096x8_0_0_0) shapeCasts_S8x4096x8_S32768x8 := by
  show StableHlo.after hostOps0 (fun b => m (c, b)) (Proc.devRef .tc main_v1) = _
  after_results
  rfl

/-- Row b·4096 + s of the table holds channels 0..8 of x at token (b, s). -/
theorem table_apply (c : Dev nD) (b : Fin 8) (s : Fin 4096) (n : Fin 8) :
    (V m c main_v1 : S32768x8.Idx → EReal) (ix2 (tok b s) n) = (m ((c : Thread nD τ).loc main_arg0) : S8x4096x1024.Idx → EReal) (ix3 b s (chan n)) := by
  rw [table_eq]
  refine (shapeCast_apply _ shapeCasts_S8x4096x8_S32768x8 (ix2 (tok b s) n) (ix3 b s n) ?_).trans ?_
  · rw [Shape.rowMajor_val_two, Shape.rowMajor_val_three]
    rfl
  · refine extractStridedSlice_apply ![0, 0, 0] _ slices_S8x4096x1024_S8x4096x8_0_0_0 (ix3 b s n) (ix3 b s (chan n)) (fun a => ?_)
    match a with
    | ⟨0, _⟩ => show b.val = 0 + b.val; omega
    | ⟨1, _⟩ => show s.val = 0 + s.val; omega
    | ⟨2, _⟩ => show n.val = 0 + n.val; omega

/-- θ with a unit row axis. -/
theorem theta_eq (c : Dev nD) : (V m c main_v2 : S1x8.Idx → EReal)
    = shapeCast S1x8 (m ((c : Thread nD τ).loc main_arg1)) shapeCasts_S8_S1x8 := by
  show StableHlo.after hostOps0 (fun b => m (c, b)) (Proc.devRef .tc main_v2) = _
  after_results
  rfl

theorem theta_apply (c : Dev nD) (n : Fin 8) :
    (V m c main_v2 : S1x8.Idx → EReal) (ix2 (0 : Fin 1) n) = (m ((c : Thread nD τ).loc main_arg1) : S8.Idx → EReal) (ix1 n) := by
  rw [theta_eq]
  exact shapeCast_a_1a_apply _ shapeCasts_S8_S1x8 (0 : Fin 1) n

/-- W1 cast to bf16 is W1. -/
theorem w1_eq (c : Dev nD) : (V m c main_v3 : S4096x8.Idx → EReal) = (m ((c : Thread nD τ).loc main_arg2) : S4096x8.Idx → EReal) := by
  show StableHlo.after hostOps0 (fun b => m (c, b)) (Proc.devRef .tc main_v3) = _
  after_results
  rfl

/-- W2 cast to bf16 is W2. -/
theorem w2_eq (c : Dev nD) : (V m c main_v4 : S1024x4096.Idx → EReal) = (m ((c : Thread nD τ).loc main_arg3) : S1024x4096.Idx → EReal) := by
  show StableHlo.after hostOps0 (fun b => m (c, b)) (Proc.devRef .tc main_v4) = _
  after_results
  rfl

/-! ## The program's result -/

/-- After the last reshape the result buffer holds `out` of the arguments. -/
theorem result (c : Dev nD) :
    (Pipeline.afterTail₀ cfgs (dats m) 0 (V0 m) [hostOps1] c main_v6 : S8x4096x1024.Idx → EReal)
      = out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  funext i
  obtain ⟨b, s, e, rfl⟩ : ∃ (b : Fin 8) (s : Fin 4096) (e : Fin 1024), i = ix3 b s e := ⟨i 0, i 1, i 2, eq_ix3 i⟩
  show shapeCast S8x4096x1024 (Pipeline.withArrays spec0 c (V0 m c) (fun w => (dats m 0 c).arrAt w cfg0.N) (Proc.devRef .tc main_v5))
      shapeCasts_S32768x1024_S8x4096x1024 (ix3 b s e) = _
  have hw : (Pipeline.withArrays spec0 c (V0 m c) (fun w => (dats m 0 c).arrAt w cfg0.N) (Proc.devRef .tc main_v5) : S32768x1024.Idx → EReal)
      = rows (R := 32768) (V m c main_v1) (V m c main_v2) (V m c main_v3) (V m c main_v4) :=
    (Pipeline.withArrays_arr spec0 launch0.win.arr_inj c (V0 m c) (fun w => (dats m 0 c).arrAt w cfg0.N) 4).trans (Blocks.final m c)
  refine (shapeCast_apply _ shapeCasts_S32768x1024_S8x4096x1024 (ix3 b s e) (ix2 (tok b s) e) ?_).trans ?_
  · rw [Shape.rowMajor_val_two, Shape.rowMajor_val_three]
    rfl
  · refine (congrFun hw (ix2 (tok b s) e)).trans ?_
    rw [w1_eq, w2_eq]
    exact rows_flat _ _ _ _ _ _ (table_apply m c) (theta_apply m c) b s e

/-- The kernel's program: every weakly fair execution terminates without a fault, with the result buffer at `out` of
    the launch contents of the arguments and the arguments unchanged. -/
theorem run : θ_run defs (onTc (τ := τ) (main (F := Ideal))) ⟨m, fun _ => 0, ρ⟩ fun r => ∀ c : Dev nD,
      r.2.mem ((c.tc : Thread nD τ).loc main_v6) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v6 (Pipeline.mem_restRefs_of main_v6 (by decide) (by decide))).trans (result m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.KernelRun

end
-- ==== Proof.Reference.lean ====
/-
  The reference computes `FeedForward.out`.

  Read one operation at a time, the reference's result at (b, s, e) is the sum over f of
  max (Σ_n (cos x[b,s,n] · cos θ[n]) · W1[f,n]) 0 · W2[e,f]: the slice keeps channels 0..8 of x, the two broadcasts
  put θ[n] at every token, each dot_general is a sum over its one contracted axis, and relu is the maximum with 0.
-/
import proofs.«144287_j65481071395981_1_alg».proof.Proof.Gen.ReferenceIdeal.Run
import proofs.«144287_j65481071395981_1_alg».proof.Proof.Gen.ReferenceIdeal.Read
import proofs.«144287_j65481071395981_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.FeedForward

/-- The reference's last stage is `out` of the four arguments, index by index. -/
theorem val_main_v8_eq_out (x0 : (⟨S8x4096x1024, .f32⟩ : BufTy).Contents (Elt Ideal)) (x1 : (⟨S8, .f32⟩ : BufTy).Contents (Elt Ideal))
    (x2 : (⟨S4096x8, .f32⟩ : BufTy).Contents (Elt Ideal)) (x3 : (⟨S1024x4096, .f32⟩ : BufTy).Contents (Elt Ideal)) :
    val_main_v8 (F := Ideal) x0 x1 x2 x3 = out x0 x1 x2 x3 := by
  funext i
  rw [val_main_v8_apply]
  unfold out
  refine Finset.sum_congr rfl fun f _ => ?_
  have e3 : ridx_main_v8 i f = ix2 (i 2) f := funext fun a => Fin.ext (by match a with | ⟨0, _⟩ => rfl | ⟨1, _⟩ => rfl)
  rw [e3, val_main_v7_apply, val_main_v6_apply, val_main_call0_v0_apply, val_main_call0_cst_apply]
  simp only [Ideal.maximumf_def, Ideal.ofBits_def, Ideal.ofBits_zero_f32]
  congr 2
  refine Finset.sum_congr rfl fun n _ => ?_
  have e0 : idx_main_v0 (lidx_main_v6 (lidx_main_v8 i f) n) = ix3 (i 0) (i 1) (chan n) :=
    funext fun a => Fin.ext (by match a with | ⟨0, _⟩ => rfl | ⟨1, _⟩ => rfl | ⟨2, _⟩ => rfl)
  have e1 : idx_main_v3 (idx_main_v4 (lidx_main_v6 (lidx_main_v8 i f) n)) = ix1 n :=
    funext fun a => Fin.ext (by match a with | ⟨0, _⟩ => rfl)
  have e2 : ridx_main_v6 (lidx_main_v8 i f) n = ix2 f n :=
    funext fun a => Fin.ext (by match a with | ⟨0, _⟩ => rfl | ⟨1, _⟩ => rfl)
  rw [val_main_v5_apply, val_main_v1_apply, val_main_v0_apply, val_main_v4_apply, val_main_v3_apply, val_main_v2_apply, e0, e1, e2]
  simp only [Ideal.mulf_def, Ideal.hostUnary_cos_def]
  rfl

/-- The reference's run: its result ends at `out` of the launch contents of its arguments, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8) = out (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v8_eq _ _ _ _)).trans (val_main_v8_eq_out _ _ _ _), (h c).2⟩)
    (Cert.ReferenceIdeal.Value.run (F := Ideal) m ρ)

/-- The reference terminates without a fault and leaves its arguments as launched. -/
theorem frame (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => (h c).2) (Cert.ReferenceIdeal.Value.run (F := Ideal) m ρ)

end Cert.ReferenceIdeal.RefValue

end
-- ==== Proof.lean ====
/-
  A per-token "quantum" layer feeding a two-layer network, against its jnp reference, over the extended reals.

  Both programs compute, for a token (b, s) and an output channel e,
      out[b,s,e] = Σ_f max (Σ_n (cos x[b,s,n] · cos θ[n]) · W1[f,n]) 0 · W2[e,f]        (n < 8, f < 4096)
  (`FeedForward.out`, Proof/Spec.lean). The reference does it with two dot_generals over the [8, 4096, ·] arrays
  (Proof/Reference.lean). The kernel slices the eight channels it needs, flattens the tokens to 32768 rows, and on each of 64
  blocks of 512 rows forms cos · cos, contracts against W1, takes the maximum with 0 and contracts against W2, with two
  casts to bf16 that are the identity on the extended reals (Proof/Payload.lean); its blocks tile the result
  (Proof/Blocks.lean), and a reshape splits the rows back into tokens (Proof/KernelRun.lean). No law beyond reading each
  product as a sum over its contracted axis is needed, so the precondition is not opened: the two sides are the same
  sums of the same products, term by term.

  The two kernel frames are the generated ones; the reference's frame is its run with the result dropped; the ideal pass
  rewrote nothing, so `preserves` is `True`.
-/
import proofs.«144287_j65481071395981_1_alg».proof.Defs
import proofs.«144287_j65481071395981_1_alg».proof.Proof.Gen.Kernel
import proofs.«144287_j65481071395981_1_alg».proof.Proof.Gen.Kernel.Skeleton
import proofs.«144287_j65481071395981_1_alg».proof.Proof.Gen.Kernel.Launch
import proofs.«144287_j65481071395981_1_alg».proof.Proof.Gen.Kernel.Points
import proofs.«144287_j65481071395981_1_alg».proof.Proof.Gen.Kernel.Frame
import proofs.«144287_j65481071395981_1_alg».proof.Proof.Gen.KernelIdeal
import proofs.«144287_j65481071395981_1_alg».proof.Proof.Gen.KernelIdeal.Skeleton
import proofs.«144287_j65481071395981_1_alg».proof.Proof.Gen.KernelIdeal.Launch
import proofs.«144287_j65481071395981_1_alg».proof.Proof.Gen.KernelIdeal.Points
import proofs.«144287_j65481071395981_1_alg».proof.Proof.Gen.KernelIdeal.Frame
import proofs.«144287_j65481071395981_1_alg».proof.Proof.Gen.ReferenceIdeal
import proofs.«144287_j65481071395981_1_alg».proof.Proof.Gen.Pre_finite_inputs
import proofs.«144287_j65481071395981_1_alg».proof.Proof.KernelRun
import proofs.«144287_j65481071395981_1_alg».proof.Proof.Reference
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernel_ideal [Cert.KernelIdeal.Facts] [Cert.Pre_finite_inputs.Facts] : Cert.frame_KernelIdeal :=
  fun m ρ _ => Cert.KernelIdeal.Gen.frame m ρ

theorem frame_reference [Cert.ReferenceIdeal.Facts] [Cert.Pre_finite_inputs.Facts] : Cert.frame_ReferenceIdeal :=
  fun m ρ _ => Cert.ReferenceIdeal.RefValue.frame m ρ

/-- From memories that agree on the four arguments, both programs end with `out` of those arguments in their result. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
